-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x512 : Shape := ⟨3, ![32, 2048, 512]⟩
abbrev S32x32 : Shape := ⟨2, ![32, 32]⟩
abbrev S262144x32 : Shape := ⟨2, ![262144, 32]⟩
abbrev S_ : Shape := ⟨0, ![]⟩

class Facts : Prop where
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_
  bcast_S_S262144x32 : S_.BroadcastsInDim S262144x32 (![] : Fin 0 → Fin S262144x32.rank)
  reducesTo_S262144x32_S_d0_1 : S262144x32.ReducesTo [0, 1] S_

variable [Facts]

def fn {F : FTy → Type} [FloatOps F] (main_arg0 : FVec F S32x2048x512 .f32) (main_arg1 : FVec F S32x32 .f32) (main_arg2 : FVec F S262144x32 .f32) : IVec S_ 1 :=
  let main_v0 : FVec F S32x2048x512 .f32 := Host.absf main_arg0
  let main_cst : FVec F S_ .f32 := constant S_ .f32 0x7F800000#32
  let main_v1 : FVec F S32x2048x512 .f32 := broadcastInDim S32x2048x512 ![] bcast_S_S32x2048x512 main_cst
  let main_v2 : IVec S32x2048x512 1 := cmpf .olt main_v0 main_v1
  let main_c : IVec S_ 1 := constantI S_ 1 1#1
  let main_v3 : IVec S_ 1 := (fun x v => Host.reduce IntOp.andi x v reducesTo_S32x2048x512_S_d0_1_2 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S262144x32 .f32 := Host.absf main_arg2
  let main_cst_2 : FVec F S_ .f32 := constant S_ .f32 0x7F800000#32
  let main_v10 : FVec F S262144x32 .f32 := broadcastInDim S262144x32 ![] bcast_S_S262144x32 main_cst_2
  let main_v11 : IVec S262144x32 1 := cmpf .olt main_v9 main_v10
  let main_c_3 : IVec S_ 1 := constantI S_ 1 1#1
  let main_v12 : IVec S_ 1 := (fun x v => Host.reduce IntOp.andi x v reducesTo_S262144x32_S_d0_1 h_S_) main_v11 main_c_3
  let main_v13 : IVec S_ 1 := andi main_v8 main_v12
  main_v13
-- ==== Kernel.lean ====
abbrev S32x2048x512 : Shape := ⟨3, ![32, 2048, 512]⟩
abbrev S32x32 : Shape := ⟨2, ![32, 32]⟩
abbrev S262144x32 : Shape := ⟨2, ![262144, 32]⟩
abbrev S32x262144 : Shape := ⟨2, ![32, 262144]⟩
abbrev S16384x32 : Shape := ⟨2, ![16384, 32]⟩
abbrev S32x16384 : Shape := ⟨2, ![32, 16384]⟩
abbrev S32x512x512 : Shape := ⟨3, ![32, 512, 512]⟩
abbrev S1x2048x512 : Shape := ⟨3, ![1, 2048, 512]⟩
abbrev S1x512x512 : Shape := ⟨3, ![1, 512, 512]⟩
abbrev S2048x512 : Shape := ⟨2, ![2048, 512]⟩
abbrev S512x512 : Shape := ⟨2, ![512, 512]⟩

abbrev nBuf : Space → Nat
  | .hbm => 6
  | .vmem => 11
  | .smem => 0
  | _ => 0

abbrev bufTy : (tb : Table) → Fin (tcTables nBuf tb) → BufTy
  | .hbm, ⟨0, _⟩ => ⟨S32x2048x512, .f32⟩
  | .hbm, ⟨1, _⟩ => ⟨S32x32, .f32⟩
  | .hbm, ⟨2, _⟩ => ⟨S262144x32, .f32⟩
  | .hbm, ⟨3, _⟩ => ⟨S32x262144, .bf16⟩
  | .hbm, ⟨4, _⟩ => ⟨S32x512x512, .bf16⟩
  | .hbm, ⟨5, _⟩ => ⟨S32x2048x512, .f32⟩
  | .local _ .vmem, ⟨0, _⟩ => ⟨S32x32, .f32⟩
  | .local _ .vmem, ⟨1, _⟩ => ⟨S16384x32, .f32⟩
  | .local _ .vmem, ⟨2, _⟩ => ⟨S16384x32, .f32⟩
  | .local _ .vmem, ⟨3, _⟩ => ⟨S32x16384, .bf16⟩
  | .local _ .vmem, ⟨4, _⟩ => ⟨S32x16384, .bf16⟩
  | .local _ .vmem, ⟨5, _⟩ => ⟨S1x2048x512, .f32⟩
  | .local _ .vmem, ⟨6, _⟩ => ⟨S1x2048x512, .f32⟩
  | .local _ .vmem, ⟨7, _⟩ => ⟨S1x512x512, .bf16⟩
  | .local _ .vmem, ⟨8, _⟩ => ⟨S1x512x512, .bf16⟩
  | .local _ .vmem, ⟨9, _⟩ => ⟨S1x2048x512, .f32⟩
  | .local _ .vmem, ⟨10, _⟩ => ⟨S1x2048x512, .f32⟩
  | _, _ => ⟨S32x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16384x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x2048x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S32x32_S32x32_0_0 : ∀ a, (![0, 0] : Fin 2 → Nat) a + S32x32.size a ≤ S32x32.size a
  h_S32x32 : 0 < S32x32.numel
  bitsLt_bf16_f32 : FTy.bits .bf16 < FTy.bits .f32
  inb_S16384x32_S16384x32_0_0 : ∀ a, (![0, 0] : Fin 2 → Nat) a + S16384x32.size a ≤ S16384x32.size a
  h_S16384x32 : 0 < S16384x32.numel
  inb_S32x16384_S32x16384_0_0 : ∀ a, (![0, 0] : Fin 2 → Nat) a + S32x16384.size a ≤ S32x16384.size a
  h_S32x16384 : 0 < S32x16384.numel
  packedbf16_S32x16384_S32x16384_0_0 : (Rect.unit (s := S32x16384) ![0, 0] S32x16384.size inb_S32x16384_S32x16384_0_0).PackedRows (EltTy.packing .bf16)
  shapeCasts_S32x262144_S32x512x512 : S32x262144.ShapeCasts S32x512x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S2048x512_S1x2048x512 : S2048x512.ShapeCasts S1x2048x512
  dot_S32x32_S16384x32_S32x16384_1_1_0_0_n_n_wf : DotDims.WF S32x32 S16384x32 S32x16384 [1] [1] [0] [0] [] []
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x32.size a ≤ S32x32.size a
  hwx0_0 : ∀ i : grid0.Coords, EltTy.bits .f32 = 32 ∨ (Rect.block (s := S32x32) S32x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x32.size a ≤ S262144x32.size a
  hwx0_1 : ∀ i : grid0.Coords, EltTy.bits .f32 = 32 ∨ (Rect.block (s := S262144x32) S16384x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x16384.size a ≤ S32x262144.size a
  hwx0_2 : ∀ i : grid0.Coords, EltTy.bits .bf16 = 32 ∨ (Rect.block (s := S32x262144) S32x16384.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x512.size a ≤ S32x2048x512.size a
  hwx1_0 : ∀ i : grid1.Coords, EltTy.bits .f32 = 32 ∨ (Rect.block (s := S32x2048x512) S1x2048x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S32x512x512.size a
  hwx1_1 : ∀ i : grid1.Coords, EltTy.bits .bf16 = 32 ∨ (Rect.block (s := S32x512x512) S1x512x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x512.size a ≤ S32x2048x512.size a
  hwx1_2 : ∀ i : grid1.Coords, EltTy.bits .f32 = 32 ∨ (Rect.block (s := S32x2048x512) S1x2048x512.size (cc1_transform_2 i) (hinb1_2 i)).WholeWords (EltTy.packing .f32)

variable [Facts₀]

def dot_S32x32_S16384x32_S32x16384_1_1_0_0_n_n : DotDims S32x32 S16384x32 S32x16384 where
  lhsContracting := [1]
  rhsContracting := [1]
  lhsNonContracting := [0]
  rhsNonContracting := [0]
  lhsBatch := []
  rhsBatch := []
  wf := dot_S32x32_S16384x32_S32x16384_1_1_0_0_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg1) S32x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16384x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S32x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1x2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2048x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x2048x512 : Shape := ⟨3, ![32, 2048, 512]⟩
abbrev S32x32 : Shape := ⟨2, ![32, 32]⟩
abbrev S262144x32 : Shape := ⟨2, ![262144, 32]⟩
abbrev S32x262144 : Shape := ⟨2, ![32, 262144]⟩
abbrev S32x512x512 : Shape := ⟨3, ![32, 512, 512]⟩

abbrev nBuf : Space → Nat
  | .hbm => 7
  | .vmem => 0
  | .smem => 0
  | _ => 0

abbrev bufTy : (tb : Table) → Fin (tcTables nBuf tb) → BufTy
  | .hbm, ⟨0, _⟩ => ⟨S32x2048x512, .f32⟩
  | .hbm, ⟨1, _⟩ => ⟨S32x32, .f32⟩
  | .hbm, ⟨2, _⟩ => ⟨S262144x32, .f32⟩
  | .hbm, ⟨3, _⟩ => ⟨S32x262144, .f32⟩
  | .hbm, ⟨4, _⟩ => ⟨S32x262144, .f32⟩
  | .hbm, ⟨5, _⟩ => ⟨S32x512x512, .f32⟩
  | .hbm, ⟨6, _⟩ => ⟨S32x2048x512, .f32⟩
  | _, _ => ⟨S32x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  transposes_S262144x32_S32x262144_1_0 : S262144x32.Transposes [1, 0] S32x262144
  shapeCasts_S32x262144_S32x512x512 : S32x262144.ShapeCasts S32x512x512
  dot_S32x32_S32x262144_S32x262144_1_0_0_1_n_n_wf : DotDims.WF S32x32 S32x262144 S32x262144 [1] [0] [0] [1] [] []
  dot_S32x2048x512_S32x512x512_S32x2048x512_2_1_1_2_0_0_wf : DotDims.WF S32x2048x512 S32x512x512 S32x2048x512 [2] [1] [1] [2] [0] [0]

variable [Facts₀]

def dot_S32x32_S32x262144_S32x262144_1_0_0_1_n_n : DotDims S32x32 S32x262144 S32x262144 where
  lhsContracting := [1]
  rhsContracting := [0]
  lhsNonContracting := [0]
  rhsNonContracting := [1]
  lhsBatch := []
  rhsBatch := []
  wf := dot_S32x32_S32x262144_S32x262144_1_0_0_1_n_n_wf
def dot_S32x2048x512_S32x512x512_S32x2048x512_2_1_1_2_0_0 : DotDims S32x2048x512 S32x512x512 S32x2048x512 where
  lhsContracting := [2]
  rhsContracting := [1]
  lhsNonContracting := [1]
  rhsNonContracting := [2]
  lhsBatch := [0]
  rhsBatch := [0]
  wf := dot_S32x2048x512_S32x512x512_S32x2048x512_2_1_1_2_0_0_wf

class Facts : Prop extends Facts₀ where

variable [Facts]
-- ==== Proof.LayerSpec.lean ====
/-
  The per-subject linear layer as one function of its three arguments.

  For batch entry b the layer first mixes the rows of W by the subject vector of b,
      gen (b, j) = ∑ n, subj (b, n) · W (j, n)          (j runs over the 512 · 512 flattened weight entries),
  then reads the 262144 mixed entries of b as a 512 × 512 matrix, entry (d, e) sitting at j = 512 · d + e, and
  multiplies the 2048 × 512 activations of b by that matrix:
      out (b, s, e) = ∑ d, X (b, s, d) · gen (b, 512 · d + e).
  Both are exact sums of extended reals. Nothing below regroups or distributes a sum, so no entry has to be finite.
-/
import Idealize.ShloMosaic.PureOps.Ideal.Laws
import Idealize.ShloMosaic.Lib.ValueIdx

noncomputable section

namespace SubjectLayer

open Idealize.ShloMosaic Idealize.ShloMosaic.ValueIdx
open scoped BigOperators

/-- Where entry (d, e) of a 512 × 512 matrix sits in its row-major flattening. -/
def flat (d e : Fin 512) : Fin 262144 := ⟨d.val * 512 + e.val, by have := d.isLt; have := e.isLt; omega⟩

theorem flat_val (d e : Fin 512) : (flat d e).val = d.val * 512 + e.val := rfl

/-- Mixed weight entry j of batch entry b: row j of W against the subject vector of b. -/
def genAt (subj : (⟨2, ![32, 32]⟩ : Shape).Idx → EReal) (W : (⟨2, ![262144, 32]⟩ : Shape).Idx → EReal)
    (b : Fin 32) (j : Fin 262144) : EReal :=
  ∑ n : Fin 32, subj (ix2 b n) * W (ix2 j n)

/-- All mixed weights as a 32 × 262144 array. -/
def gen (subj : (⟨2, ![32, 32]⟩ : Shape).Idx → EReal) (W : (⟨2, ![262144, 32]⟩ : Shape).Idx → EReal) :
    (⟨2, ![32, 262144]⟩ : Shape).Idx → EReal :=
  fun i => genAt subj W (i 0) (i 1)

/-- The same entries as 32 matrices of 512 × 512. -/
def genCube (subj : (⟨2, ![32, 32]⟩ : Shape).Idx → EReal) (W : (⟨2, ![262144, 32]⟩ : Shape).Idx → EReal) :
    (⟨3, ![32, 512, 512]⟩ : Shape).Idx → EReal :=
  fun i => genAt subj W (i 0) (flat (i 1) (i 2))

/-- Entry (b, s, e) of the layer's result from the 32 weight matrices `Ws`: row s of the activations of b against
    column e of matrix b. -/
def mulAt (X : (⟨3, ![32, 2048, 512]⟩ : Shape).Idx → EReal) (Ws : (⟨3, ![32, 512, 512]⟩ : Shape).Idx → EReal)
    (b : Fin 32) (s : Fin 2048) (e : Fin 512) : EReal :=
  ∑ d : Fin 512, X (ix3 b s d) * Ws (ix3 b d e)

/-- The batched product of the activations with 32 weight matrices. -/
def mul (X : (⟨3, ![32, 2048, 512]⟩ : Shape).Idx → EReal) (Ws : (⟨3, ![32, 512, 512]⟩ : Shape).Idx → EReal) :
    (⟨3, ![32, 2048, 512]⟩ : Shape).Idx → EReal :=
  fun i => mulAt X Ws (i 0) (i 1) (i 2)

/-- The layer: the activations of each batch entry times that entry's mixed weight matrix. -/
def out (X : (⟨3, ![32, 2048, 512]⟩ : Shape).Idx → EReal) (subj : (⟨2, ![32, 32]⟩ : Shape).Idx → EReal)
    (W : (⟨2, ![262144, 32]⟩ : Shape).Idx → EReal) : (⟨3, ![32, 2048, 512]⟩ : Shape).Idx → EReal :=
  mul X (genCube subj W)

theorem gen_ix2 (subj : (⟨2, ![32, 32]⟩ : Shape).Idx → EReal) (W : (⟨2, ![262144, 32]⟩ : Shape).Idx → EReal)
    (b : Fin 32) (j : Fin 262144) : gen subj W (ix2 b j) = genAt subj W b j := rfl

theorem genCube_ix3 (subj : (⟨2, ![32, 32]⟩ : Shape).Idx → EReal) (W : (⟨2, ![262144, 32]⟩ : Shape).Idx → EReal)
    (b : Fin 32) (d e : Fin 512) : genCube subj W (ix3 b d e) = genAt subj W b (flat d e) := rfl

theorem mul_ix3 (X : (⟨3, ![32, 2048, 512]⟩ : Shape).Idx → EReal) (Ws : (⟨3, ![32, 512, 512]⟩ : Shape).Idx → EReal)
    (b : Fin 32) (s : Fin 2048) (e : Fin 512) : mul X Ws (ix3 b s e) = mulAt X Ws b s e := rfl

end SubjectLayer

end
-- ==== Proof.GenRegion.lean ====
/-
  The first launch leaves the mixed weights in its output array.

  Its grid has 16 points. Point t holds the whole 32 × 32 subject array, rows 16384·t … 16384·t + 16383 of W, and
  columns 16384·t … 16384·t + 16383 of the output. The body multiplies the subject block by the transposed W block
  (both second axes contracted) from a zero accumulator, so entry (b, k) of what it stores is
  ∑ n, subj (b, n) · W (16384·t + k, n): entry (b, 16384·t + k) of `gen`. The narrowing to bf16 before and after
  the product is the identity on extended reals. The 16 column blocks tile the array, so it ends as `gen`.
-/
import proofs.«181074_j28887950033230_1_alg».proof.Proof.Gen.KernelIdeal.Frame
import proofs.«181074_j28887950033230_1_alg».proof.Proof.LayerSpec
import Idealize.ShloMosaic.Lib.Pipeline.Value
import Idealize.ShloMosaic.Lib.ValueIdx
import Idealize.ShloMosaic.PureOps.Ideal.Laws

set_option maxRecDepth 16384

noncomputable section

namespace Cert.KernelIdeal.GenRegion

open Cert.KernelIdeal Cert.KernelIdeal.Gen Idealize.ShloMosaic Idealize.ShloMosaic.TcCoe Idealize.ShloMosaic.ValueIdx
open Idealize.SL.Sem SubjectLayer
open Idealize.ShloMosaic.Pipeline (Dat Cfg Window)
open scoped BigOperators

/-! ## The product of the two blocks, entry by entry -/

theorem lhs_ax0 (i : S32x16384.Idx) (q : dot_S32x32_S16384x32_S32x16384_1_1_0_0_n_n.contr.Idx) :
    (dot_S32x32_S16384x32_S32x16384_1_1_0_0_n_n.lhsIdx i q 0).val = (i 0).val := by
  unfold DotDims.lhsIdx
  rw [dif_neg (show ¬(0 : Fin S32x32.rank) ∈ dot_S32x32_S16384x32_S32x16384_1_1_0_0_n_n.lhsBatch by decide), dif_pos (show (0 : Fin S32x32.rank) ∈ dot_S32x32_S16384x32_S32x16384_1_1_0_0_n_n.lhsNonContracting by decide)]
  rfl
theorem lhs_ax1 (i : S32x16384.Idx) (q : dot_S32x32_S16384x32_S32x16384_1_1_0_0_n_n.contr.Idx) :
    (dot_S32x32_S16384x32_S32x16384_1_1_0_0_n_n.lhsIdx i q 1).val = (q ⟨0, by decide⟩).val :=
  dot_S32x32_S16384x32_S32x16384_1_1_0_0_n_n.lhsIdx_val_of_single rfl i q
theorem rhs_ax0 (i : S32x16384.Idx) (q : dot_S32x32_S16384x32_S32x16384_1_1_0_0_n_n.contr.Idx) :
    (dot_S32x32_S16384x32_S32x16384_1_1_0_0_n_n.rhsIdx i q 0).val = (i 1).val := by
  unfold DotDims.rhsIdx
  rw [dif_neg (show ¬(0 : Fin S16384x32.rank) ∈ dot_S32x32_S16384x32_S32x16384_1_1_0_0_n_n.rhsBatch by decide), dif_pos (show (0 : Fin S16384x32.rank) ∈ dot_S32x32_S16384x32_S32x16384_1_1_0_0_n_n.rhsNonContracting by decide)]
  rfl
theorem rhs_ax1 (i : S32x16384.Idx) (q : dot_S32x32_S16384x32_S32x16384_1_1_0_0_n_n.contr.Idx) :
    (dot_S32x32_S16384x32_S32x16384_1_1_0_0_n_n.rhsIdx i q 1).val = (q ⟨0, by decide⟩).val :=
  dot_S32x32_S16384x32_S32x16384_1_1_0_0_n_n.rhsIdx_val_of_single rfl i q

/-- Entry (b, k) of what the body stores: row b of the subject block against row k of the W block. -/
theorem stored_apply (x0 : FVec Ideal S32x32 .f32) (x1 : FVec Ideal S16384x32 .f32) (b : Fin 32) (k : Fin 16384) :
    k0_pay1 (F := Ideal) x0 x1 (ix2 b k) = ∑ n : Fin 32, x0 (ix2 b n) * x1 (ix2 k n) := by
  unfold k0_pay1
  show FloatOps.matmul dot_S32x32_S16384x32_S32x16384_1_1_0_0_n_n none (truncf .bf16 x0 bitsLt_bf16_f32) (truncf .bf16 x1 bitsLt_bf16_f32) (constant S32x16384 .f32 0x00000000#32) (ix2 b k) = _
  rw [Ideal.matmul_constant_zero_apply, ← Equiv.sum_comp (contrEquiv1 dot_S32x32_S16384x32_S32x16384_1_1_0_0_n_n 32 rfl rfl).symm]
  refine Finset.sum_congr rfl fun n _ => ?_
  have hk := contrEquiv1_symm_val dot_S32x32_S16384x32_S32x16384_1_1_0_0_n_n 32 rfl rfl n
  have el : dot_S32x32_S16384x32_S32x16384_1_1_0_0_n_n.lhsIdx (ix2 b k) ((contrEquiv1 dot_S32x32_S16384x32_S32x16384_1_1_0_0_n_n 32 rfl rfl).symm n) = ix2 b n := funext fun a => Fin.ext (by
    match a with
    | ⟨0, _⟩ => exact lhs_ax0 _ _
    | ⟨1, _⟩ => exact (lhs_ax1 _ _).trans hk)
  have er : dot_S32x32_S16384x32_S32x16384_1_1_0_0_n_n.rhsIdx (ix2 b k) ((contrEquiv1 dot_S32x32_S16384x32_S32x16384_1_1_0_0_n_n 32 rfl rfl).symm n) = ix2 k n := funext fun a => Fin.ext (by
    match a with
    | ⟨0, _⟩ => exact rhs_ax0 _ _
    | ⟨1, _⟩ => exact (rhs_ax1 _ _).trans hk)
  rw [el, er]
  rfl

/-- If the subject block is the subject array and the W block is rows 16384·T … of W, what the body stores at a block
    index is `gen` at the array index in column block T. -/
theorem stored_eq_gen (x0 : FVec Ideal S32x32 .f32) (x1 : FVec Ideal S16384x32 .f32)
    (s : S32x32.Idx → EReal) (w : S262144x32.Idx → EReal) (T : Nat)
    (h0 : ∀ b n : Fin 32, x0 (ix2 b n) = s (ix2 b n))
    (h1 : ∀ (k : Fin 16384) (n : Fin 32) (r : Fin 262144), r.val = T * 16384 + k.val → x1 (ix2 k n) = w (ix2 r n))
    (j : S32x16384.Idx) (i : S32x262144.Idx) (hi0 : (i 0).val = (j 0).val) (hi1 : (i 1).val = T * 16384 + (j 1).val) :
    k0_pay1 (F := Ideal) x0 x1 j = gen s w i := by
  obtain ⟨p, q, rfl⟩ : ∃ (p : Fin 32) (q : Fin 16384), j = ix2 p q := ⟨j 0, j 1, eq_ix2 j⟩
  obtain ⟨b, r, rfl⟩ : ∃ (b : Fin 32) (r : Fin 262144), i = ix2 b r := ⟨i 0, i 1, eq_ix2 i⟩
  have hb : b = p := Fin.ext hi0
  subst hb
  rw [stored_apply, gen_ix2]
  unfold genAt
  exact Finset.sum_congr rfl fun n _ => by rw [h0 b n, h1 q n r hi1]

/-! ## From the 16 blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The three windows' block indices at point t: the subject window stays, the W window walks down its rows and the
    output window along its columns, both at the point's number. -/
theorem block_indices : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- What point t writes back is its block of `gen` of the subject array and W as the launch finds them. -/
theorem flushed_gen (c : Dev nD) (t : Fin cfg0.N) :
    (dat0 V c).flushed 2 t = ((cfg0.win 2).blk t).view.read (Elt Ideal) (gen (V c main_arg1) (V c main_arg2)) := by
  show (cfg0.win 2).cut (grid0.coords t) ((dat0 V c).after 2 t) = _
  rw [after0_2]
  unfold out0_2
  rw [View.canon_unit_zero hz]
  simp only [View.ld_unit_zero (S := S32x32) hz, View.ld_unit_zero (S := S16384x32) hz]
  obtain ⟨e0, e1, e2, e3, e4, e5⟩ := block_indices t
  funext j
  show k0_pay1 (F := Ideal) (iblk0 V c 0 t) (iblk0 V c 1 t) j = gen (V c main_arg1) (V c main_arg2) (((cfg0.win 2).blk t).view.emb j)
  refine stored_eq_gen (iblk0 V c 0 t) (iblk0 V c 1 t) (V c main_arg1) (V c main_arg2) t.val ?_ ?_ j _ ?_ ?_
  · intro b n
    show V c main_arg1 (((cfg0.win 0).blk t).view.emb (ix2 b n)) = V c main_arg1 (ix2 b n)
    refine congrArg _ (funext fun a => Fin.ext ?_)
    match a with
    | ⟨0, _⟩ => show win0_0.index t (0 : Fin 2) * 32 + 1 * b.val = b.val; omega
    | ⟨1, _⟩ => show win0_0.index t (1 : Fin 2) * 32 + 1 * n.val = n.val; omega
  · intro k n r hr
    show V c main_arg2 (((cfg0.win 1).blk t).view.emb (ix2 k n)) = V c main_arg2 (ix2 r n)
    refine congrArg _ (funext fun a => Fin.ext ?_)
    match a with
    | ⟨0, _⟩ => show win0_1.index t (0 : Fin 2) * 16384 + 1 * k.val = r.val; omega
    | ⟨1, _⟩ => show win0_1.index t (1 : Fin 2) * 32 + 1 * n.val = n.val; omega
  · show win0_2.index t (0 : Fin 2) * 32 + 1 * (j 0).val = (j 0).val; omega
  · show win0_2.index t (1 : Fin 2) * 16384 + 1 * (j 1).val = t.val * 16384 + (j 1).val; omega

/-- An index of the output array is in point t's block iff each coordinate is in the block's range on its axis. -/
theorem mem_block (t : Fin cfg0.N) (i : S32x262144.Idx) :
    i ∈ ((cfg0.win 2).blk t).view.set ↔ ∀ a : Fin 2, win0_2.index t a * S32x16384.size a ≤ (i a).val ∧ (i a).val < win0_2.index t a * S32x16384.size a + S32x16384.size a := by
  show i ∈ ((View.whole main_v0).slice (win0_2.rect t)).set ↔ _
  rw [View.set_slice_whole, Rect.mem_set_unit]
  exact Iff.rfl

/-- Column j of the output lies in the block of point j / 16384. -/
theorem covered (i : S32x262144.Idx) :
    ∃ t : Fin cfg0.N, (cfg0.win 2).flush t = true ∧ i ∈ ((cfg0.win 2).blk t).view.set := by
  have hi0 : (i 0).val < 32 := (i 0).isLt
  have hi1 : (i 1).val < 262144 := (i 1).isLt
  have hlt : (i 1).val / 16384 < 16 := by omega
  obtain ⟨-, -, -, -, e4, e5⟩ := block_indices ⟨(i 1).val / 16384, hlt⟩
  have e5' : win0_2.index ⟨(i 1).val / 16384, hlt⟩ (1 : Fin 2) = (i 1).val / 16384 := e5
  refine ⟨⟨(i 1).val / 16384, hlt⟩, flush0_2 _, ?_⟩
  rw [mem_block]
  intro a
  match a with
  | ⟨0, _⟩ => show win0_2.index ⟨(i 1).val / 16384, hlt⟩ (0 : Fin 2) * 32 ≤ (i 0).val ∧ (i 0).val < win0_2.index ⟨(i 1).val / 16384, hlt⟩ (0 : Fin 2) * 32 + 32; omega
  | ⟨1, _⟩ => show win0_2.index ⟨(i 1).val / 16384, hlt⟩ (1 : Fin 2) * 16384 ≤ (i 1).val ∧ (i 1).val < win0_2.index ⟨(i 1).val / 16384, hlt⟩ (1 : Fin 2) * 16384 + 16384; omega

/-- After the first launch its output array holds the mixed weights of the subject array and W as it found them. -/
theorem final_gen (c : Dev nD) : (dat0 V c).arrAt 2 cfg0.N = gen (V c main_arg1) (V c main_arg2) :=
  (dat0 V c).arrAt_eq_of_cover 2 (gen (V c main_arg1) (V c main_arg2)) (fun t _ => flushed_gen V c t) covered

end Cert.KernelIdeal.GenRegion

end
-- ==== Proof.MulRegion.lean ====
/-
  The second launch multiplies each batch entry's activations by that entry's weight matrix.

  Its grid has 32 points. Point t holds batch entry t of the activations (2048 × 512), of the weight matrices
  (512 × 512) and of the output (2048 × 512), each behind a leading axis of extent one that the body drops and puts
  back. The body multiplies the two matrices from a zero accumulator, so entry (s, e) of what it stores is
  ∑ d, X (t, s, d) · Ws (t, d, e): entry (t, s, e) of `mul X Ws`. Narrowing the activations to bf16 is the identity
  on extended reals. The 32 batch blocks tile the output array, so it ends as `mul X Ws`.
-/
import proofs.«181074_j28887950033230_1_alg».proof.Proof.Gen.KernelIdeal.Frame
import proofs.«181074_j28887950033230_1_alg».proof.Proof.LayerSpec
import Idealize.ShloMosaic.Lib.Pipeline.Value
import Idealize.ShloMosaic.Lib.ValueIdx
import Idealize.ShloMosaic.PureOps.Ideal.Laws

set_option maxRecDepth 16384

noncomputable section

namespace Cert.KernelIdeal.MulRegion

open Cert.KernelIdeal Cert.KernelIdeal.Gen Idealize.ShloMosaic Idealize.ShloMosaic.TcCoe Idealize.ShloMosaic.ValueIdx
open Idealize.SL.Sem SubjectLayer
open Idealize.ShloMosaic.Pipeline (Dat Cfg Window)
open scoped BigOperators

/-! ## The product of the two blocks, entry by entry -/

theorem lhs_ax0 (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide), dif_pos (show (0 : Fin S2048x512.rank) ∈ dot_S2048x512_S512x512_S2048x512_1_0_0_1_n_n.lhsNonContracting by decide)]
  rfl
theorem lhs_ax1 (i : S2048x512.Idx) (q : dot_S2048x512_S512x512_S2048x512_1_0_0_1_n_n.contr.Idx) :
    (dot_S2048x512_S512x512_S2048x512_1_0_0_1_n_n.lhsIdx i q 1).val = (q ⟨0, by decide⟩).val :=
  dot_S2048x512_S512x512_S2048x512_1_0_0_1_n_n.lhsIdx_val_of_single rfl i q
theorem rhs_ax0 (i : S2048x512.Idx) (q : dot_S2048x512_S512x512_S2048x512_1_0_0_1_n_n.contr.Idx) :
    (dot_S2048x512_S512x512_S2048x512_1_0_0_1_n_n.rhsIdx i q 0).val = (q ⟨0, by decide⟩).val :=
  dot_S2048x512_S512x512_S2048x512_1_0_0_1_n_n.rhsIdx_val_of_single rfl i q
theorem rhs_ax1 (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide), dif_pos (show (1 : Fin S512x512.rank) ∈ dot_S2048x512_S512x512_S2048x512_1_0_0_1_n_n.rhsNonContracting by decide)]
  rfl

/-- Entry (s, e) of what the body stores (behind the unit axis): row s of the activation block against column e of
    the weight block. -/
theorem stored_apply (x0 : FVec Ideal S1x2048x512 .f32) (x1 : FVec Ideal S1x512x512 .bf16) (u : Fin 1) (s : Fin 2048) (e : Fin 512) :
    k1_pay1 (F := Ideal) x0 x1 (ix3 u s e) = ∑ d : Fin 512, x0 (ix3 0 s d) * x1 (ix3 0 d e) := by
  unfold k1_pay1
  show shapeCast S1x2048x512 (FloatOps.matmul dot_S2048x512_S512x512_S2048x512_1_0_0_1_n_n none (truncf .bf16 (shapeCast S2048x512 x0 shapeCasts_S1x2048x512_S2048x512) bitsLt_bf16_f32) (shapeCast S512x512 x1 shapeCasts_S1x512x512_S512x512) (constant S2048x512 .f32 0x00000000#32)) shapeCasts_S2048x512_S1x2048x512 (ix3 u s e) = _
  have hu : u.val = 0 := by have := u.isLt; omega
  rw [shapeCast_apply _ shapeCasts_S2048x512_S1x2048x512 (ix3 u s e) (ix2 s e) (by
    rewrite [Shape.rowMajor_val_two, Shape.rowMajor_val_three]
    show s.val * 512 + e.val = (u.val * 2048 + s.val) * 512 + e.val
    rw [hu]; omega)]
  rw [Ideal.matmul_constant_zero_apply, ← Equiv.sum_comp (contrEquiv1 dot_S2048x512_S512x512_S2048x512_1_0_0_1_n_n 512 rfl rfl).symm]
  refine Finset.sum_congr rfl fun d _ => ?_
  have hk := contrEquiv1_symm_val dot_S2048x512_S512x512_S2048x512_1_0_0_1_n_n 512 rfl rfl d
  have el : dot_S2048x512_S512x512_S2048x512_1_0_0_1_n_n.lhsIdx (ix2 s e) ((contrEquiv1 dot_S2048x512_S512x512_S2048x512_1_0_0_1_n_n 512 rfl rfl).symm d) = ix2 s d := funext fun a => Fin.ext (by
    match a with
    | ⟨0, _⟩ => exact lhs_ax0 _ _
    | ⟨1, _⟩ => exact (lhs_ax1 _ _).trans hk)
  have er : dot_S2048x512_S512x512_S2048x512_1_0_0_1_n_n.rhsIdx (ix2 s e) ((contrEquiv1 dot_S2048x512_S512x512_S2048x512_1_0_0_1_n_n 512 rfl rfl).symm d) = ix2 d e := funext fun a => Fin.ext (by
    match a with
    | ⟨0, _⟩ => exact (rhs_ax0 _ _).trans hk
    | ⟨1, _⟩ => exact rhs_ax1 _ _)
  rw [el, er]
  show shapeCast S2048x512 x0 shapeCasts_S1x2048x512_S2048x512 (ix2 s d) * shapeCast S512x512 x1 shapeCasts_S1x512x512_S512x512 (ix2 d e) = _
  rw [shapeCast_apply x0 shapeCasts_S1x2048x512_S2048x512 (ix2 s d) (ix3 0 s d) (by
        rewrite [Shape.rowMajor_val_two, Shape.rowMajor_val_three]
        show (0 * 2048 + s.val) * 512 + d.val = s.val * 512 + d.val
        omega),
      shapeCast_apply x1 shapeCasts_S1x512x512_S512x512 (ix2 d e) (ix3 0 d e) (by
        rewrite [Shape.rowMajor_val_two, Shape.rowMajor_val_three]
        show (0 * 512 + d.val) * 512 + e.val = d.val * 512 + e.val
        omega)]

/-- If the activation block is batch entry T of X and the weight block is batch entry T of Ws, what the body stores
    at a block index is `mul X Ws` at the array index in batch entry T. -/
theorem stored_eq_mul (x0 : FVec Ideal S1x2048x512 .f32) (x1 : FVec Ideal S1x512x512 .bf16)
    (X : S32x2048x512.Idx → EReal) (Ws : S32x512x512.Idx → EReal) (T : Nat)
    (h0 : ∀ (s : Fin 2048) (d : Fin 512) (b : Fin 32), b.val = T → x0 (ix3 0 s d) = X (ix3 b s d))
    (h1 : ∀ (d e : Fin 512) (b : Fin 32), b.val = T → x1 (ix3 0 d e) = Ws (ix3 b d e))
    (j : S1x2048x512.Idx) (i : S32x2048x512.Idx) (hi0 : (i 0).val = T) (hi1 : (i 1).val = (j 1).val) (hi2 : (i 2).val = (j 2).val) :
    k1_pay1 (F := Ideal) x0 x1 j = mul X Ws i := by
  obtain ⟨u, p, q, rfl⟩ : ∃ (u : Fin 1) (p : Fin 2048) (q : Fin 512), j = ix3 u p q := ⟨j 0, j 1, j 2, eq_ix3 j⟩
  obtain ⟨b, s, e, rfl⟩ : ∃ (b : Fin 32) (s : Fin 2048) (e : Fin 512), i = ix3 b s e := ⟨i 0, i 1, i 2, eq_ix3 i⟩
  have hs : s = p := Fin.ext hi1
  have he : e = q := Fin.ext hi2
  subst hs he
  rw [stored_apply, mul_ix3]
  unfold mulAt
  exact Finset.sum_congr rfl fun d _ => by rw [h0 s d b hi0, h1 d e b hi0]

/-! ## From the 32 blocks to the array -/

variable (V : (c : Dev nD) → (b : Ref sig .tc) → Buf (Elt Ideal) ((c : Thread nD τ).loc b))

theorem hz : (![0, 0, 0] : Fin 3 → Nat) = fun _ => 0 := funext fun a => by fin_cases a <;> rfl

/-- All three windows sit on batch entry t at point t. -/
theorem block_indices : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- What point t writes back is its block of `mul` of the activations and the weight matrices as the launch finds them. -/
theorem flushed_mul (c : Dev nD) (t : Fin cfg1.N) :
    (dat1 V c).flushed 2 t = ((cfg1.win 2).blk t).view.read (Elt Ideal) (mul (V c main_arg0) (V c main_v1)) := by
  show (cfg1.win 2).cut (grid1.coords t) ((dat1 V c).after 2 t) = _
  rw [after1_2]
  unfold out1_2
  rw [View.canon_unit_zero hz]
  simp only [View.ld_unit_zero (S := S1x2048x512) hz, View.ld_unit_zero (S := S1x512x512) hz]
  obtain ⟨a0, a1, a2, b0, b1, b2, c0, c1, c2⟩ := block_indices t
  funext j
  show k1_pay1 (F := Ideal) (iblk1 V c 0 t) (iblk1 V c 1 t) j = mul (V c main_arg0) (V c main_v1) (((cfg1.win 2).blk t).view.emb j)
  refine stored_eq_mul (iblk1 V c 0 t) (iblk1 V c 1 t) (V c main_arg0) (V c main_v1) t.val ?_ ?_ j _ ?_ ?_ ?_
  · intro s d b hb
    show V c main_arg0 (((cfg1.win 0).blk t).view.emb (ix3 0 s d)) = V c main_arg0 (ix3 b s d)
    refine congrArg _ (funext fun a => Fin.ext ?_)
    match a with
    | ⟨0, _⟩ => show win1_0.index t (0 : Fin 3) * 1 + 1 * 0 = b.val; omega
    | ⟨1, _⟩ => show win1_0.index t (1 : Fin 3) * 2048 + 1 * s.val = s.val; omega
    | ⟨2, _⟩ => show win1_0.index t (2 : Fin 3) * 512 + 1 * d.val = d.val; omega
  · intro d e b hb
    show V c main_v1 (((cfg1.win 1).blk t).view.emb (ix3 0 d e)) = V c main_v1 (ix3 b d e)
    refine congrArg _ (funext fun a => Fin.ext ?_)
    match a with
    | ⟨0, _⟩ => show win1_1.index t (0 : Fin 3) * 1 + 1 * 0 = b.val; omega
    | ⟨1, _⟩ => show win1_1.index t (1 : Fin 3) * 512 + 1 * d.val = d.val; omega
    | ⟨2, _⟩ => show win1_1.index t (2 : Fin 3) * 512 + 1 * e.val = e.val; omega
  · have hj0 : (j 0).val < 1 := (j 0).isLt
    show win1_2.index t (0 : Fin 3) * 1 + 1 * (j 0).val = t.val; omega
  · show win1_2.index t (1 : Fin 3) * 2048 + 1 * (j 1).val = (j 1).val; omega
  · show win1_2.index t (2 : Fin 3) * 512 + 1 * (j 2).val = (j 2).val; omega

/-- An index of the output array is in point t's block iff each coordinate is in the block's range on its axis. -/
theorem mem_block (t : Fin cfg1.N) (i : S32x2048x512.Idx) :
    i ∈ ((cfg1.win 2).blk t).view.set ↔ ∀ a : Fin 3, win1_2.index t a * S1x2048x512.size a ≤ (i a).val ∧ (i a).val < win1_2.index t a * S1x2048x512.size a + S1x2048x512.size a := by
  show i ∈ ((View.whole main_v2).slice (win1_2.rect t)).set ↔ _
  rw [View.set_slice_whole, Rect.mem_set_unit]
  exact Iff.rfl

/-- Batch entry b of the output lies in the block of point b. -/
theorem covered (i : S32x2048x512.Idx) :
    ∃ t : Fin cfg1.N, (cfg1.win 2).flush t = true ∧ i ∈ ((cfg1.win 2).blk t).view.set := by
  have hi0 : (i 0).val < 32 := (i 0).isLt
  have hi1 : (i 1).val < 2048 := (i 1).isLt
  have hi2 : (i 2).val < 512 := (i 2).isLt
  obtain ⟨-, -, -, -, -, -, c0, c1, c2⟩ := block_indices ⟨(i 0).val, hi0⟩
  have c0' : win1_2.index ⟨(i 0).val, hi0⟩ (0 : Fin 3) = (i 0).val := c0
  refine ⟨⟨(i 0).val, hi0⟩, flush1_2 _, ?_⟩
  rw [mem_block]
  intro a
  match a with
  | ⟨0, _⟩ => show win1_2.index ⟨(i 0).val, hi0⟩ (0 : Fin 3) * 1 ≤ (i 0).val ∧ (i 0).val < win1_2.index ⟨(i 0).val, hi0⟩ (0 : Fin 3) * 1 + 1; omega
  | ⟨1, _⟩ => show win1_2.index ⟨(i 0).val, hi0⟩ (1 : Fin 3) * 2048 ≤ (i 1).val ∧ (i 1).val < win1_2.index ⟨(i 0).val, hi0⟩ (1 : Fin 3) * 2048 + 2048; omega
  | ⟨2, _⟩ => show win1_2.index ⟨(i 0).val, hi0⟩ (2 : Fin 3) * 512 ≤ (i 2).val ∧ (i 2).val < win1_2.index ⟨(i 0).val, hi0⟩ (2 : Fin 3) * 512 + 512; omega

/-- After the second launch its output array holds the batched product of the activations and the weight matrices as
    it found them. -/
theorem final_mul (c : Dev nD) : (dat1 V c).arrAt 2 cfg1.N = mul (V c main_arg0) (V c main_v1) :=
  (dat1 V c).arrAt_eq_of_cover 2 (mul (V c main_arg0) (V c main_v1)) (fun t _ => flushed_mul V c t) covered

end Cert.KernelIdeal.MulRegion

end
-- ==== Proof.KernelValue.lean ====
/-
  The kernel program's result array as the layer's function of its arguments.

  The first launch reads the subject array and W untouched from the launch memory and leaves `gen` of them. The one host
  operation between the launches reshapes that 32 × 262144 array to 32 × 512 × 512: entry (b, d, e) is entry
  (b, 512·d + e), which is `genCube`. The second launch reads the activations untouched (neither the first launch nor
  the reshape writes them) and the reshaped weights, and leaves their batched product, which is `out`.
-/
import proofs.«181074_j28887950033230_1_alg».proof.Proof.KernelRun
import proofs.«181074_j28887950033230_1_alg».proof.Proof.GenRegion
import proofs.«181074_j28887950033230_1_alg».proof.Proof.MulRegion
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.ShloMosaic.ValueIdx
open Idealize.SL.Sem SubjectLayer

variable (m : (ℓ : Loc nD τ sig) → Buf (Elt Ideal) ℓ) (ρ : Dev nD → PrngReg)

/-- After the first launch its output array holds the mixed weights of the launch memory's subject array and W. -/
theorem after_first (c : Dev nD) :
    W1 m ρ c (Proc.devRef .tc main_v0) = gen (m ((c : Thread nD τ).loc main_arg1)) (m ((c : Thread nD τ).loc main_arg2)) :=
  (W1_arr m ρ c 2).trans (GenRegion.final_gen (V0 m ρ) c)

/-- The second launch finds the mixed weights as 32 matrices of 512 × 512: the reshape reads entry (b, d, e) at
    (b, 512·d + e). -/
theorem entry_weights (c : Dev nD) :
    V2 m ρ c main_v1 = genCube (m ((c : Thread nD τ).loc main_arg1)) (m ((c : Thread nD τ).loc main_arg2)) := by
  have e : (V2 m ρ c main_v1 : S32x512x512.Idx → EReal)
      = shapeCast S32x512x512 (W1 m ρ c (Proc.devRef .tc main_v0)) shapeCasts_S32x262144_S32x512x512 := by
    show StableHlo.after hostOps1 (W1 m ρ c) (Proc.devRef .tc main_v1) = _
    after_results
    rfl
  rw [e, after_first]
  funext i
  obtain ⟨b, d, e', rfl⟩ : ∃ (b : Fin 32) (d : Fin 512) (e' : Fin 512), i = ix3 b d e' := ⟨i 0, i 1, i 2, eq_ix3 i⟩
  rw [shapeCast_apply _ shapeCasts_S32x262144_S32x512x512 (ix3 b d e') (ix2 b (flat d e')) (by
    rewrite [Shape.rowMajor_val_two, Shape.rowMajor_val_three]
    show b.val * 262144 + (d.val * 512 + e'.val) = (b.val * 512 + d.val) * 512 + e'.val
    omega)]
  rfl

/-- The second launch finds the activations as launched. -/
theorem entry_acts (c : Dev nD) : V2 m ρ c main_arg0 = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.reshape_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

/-- What the second launch's write-backs leave is the layer's result. -/
theorem result (c : Dev nD) :
    (dat1 (V2 m ρ) c).arrAt 2 cfg1.N
      = out (m ((c : Thread nD τ).loc main_arg0)) (m ((c : Thread nD τ).loc main_arg1)) (m ((c : Thread nD τ).loc main_arg2)) := by
  rw [MulRegion.final_mul (V2 m ρ) c, entry_acts, entry_weights]
  rfl

/-- The kernel program's run: its result array ends at the layer's function of the launch memory's arguments, which
    end as launched. -/
theorem run : θ_run defs (onTc (τ := τ) (main (F := Ideal))) ⟨m, fun _ => 0, ρ⟩ (fun r => ∀ c : Dev nD,
      r.2.mem ((c.tc : Thread nD τ).loc main_v2)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result m ρ c), (h c).2⟩) (ValueRun.run_main m ρ)

end Cert.KernelIdeal.Whole

end
-- ==== Proof.RefValue.lean ====
/-
  The reference computes the layer's function.

  It transposes W, multiplies the subject array by the transpose (entry (b, j) is ∑ n, subj (b, n) · W (j, n)), reshapes
  the 32 × 262144 product to 32 × 512 × 512 (entry (b, d, e) is entry (b, 512·d + e)) and multiplies the activations by
  it, batch entry by batch entry: ∑ d, X (b, s, d) · (∑ n, subj (b, n) · W (512·d + e, n)). That is `out` term by term.
-/
import proofs.«181074_j28887950033230_1_alg».proof.Proof.Gen.ReferenceIdeal.Read
import proofs.«181074_j28887950033230_1_alg».proof.Proof.LayerSpec

noncomputable section

namespace Cert.ReferenceIdeal.RefValue

open Cert.ReferenceIdeal Cert.ReferenceIdeal.Gen Cert.ReferenceIdeal.Read Idealize.ShloMosaic Idealize.ShloMosaic.ValueIdx SubjectLayer
open scoped BigOperators

/-- The reference's last stage, read index by index through its four operations, is the layer's function. -/
theorem ref_eq_out (x0 : S32x2048x512.Idx → EReal) (x1 : S32x32.Idx → EReal) (x2 : S262144x32.Idx → EReal) :
    val_main_v3 (F := Ideal) x0 x1 x2 = out x0 x1 x2 := by
  funext i
  obtain ⟨b, s, e, rfl⟩ : ∃ (b : Fin 32) (s : Fin 2048) (e : Fin 512), i = ix3 b s e := ⟨i 0, i 1, i 2, eq_ix3 i⟩
  have hb : b.val < 32 := b.isLt
  have he : e.val < 512 := e.isLt
  rw [val_main_v3_apply]
  show _ = mulAt x0 (genCube x1 x2) b s e
  unfold mulAt
  refine Finset.sum_congr rfl fun d _ => ?_
  have hd : d.val < 512 := d.isLt
  have hl : lidx_main_v3 (ix3 b s e) d = ix3 b s d := funext fun a => Fin.ext (by
    match a with
    | ⟨0, _⟩ => rfl
    | ⟨1, _⟩ => rfl
    | ⟨2, _⟩ => rfl)
  have hr : ridx_main_v3 (ix3 b s e) d = ix3 b d e := funext fun a => Fin.ext (by
    match a with
    | ⟨0, _⟩ => rfl
    | ⟨1, _⟩ => rfl
    | ⟨2, _⟩ => rfl)
  rw [hl, hr, val_main_v2_apply, val_main_v1_apply, genCube_ix3]
  unfold genAt
  refine congrArg (x0 (ix3 b s d) * ·) (Finset.sum_congr rfl fun n _ => ?_)
  rw [val_main_v0_apply]
  have h1 : lidx_main_v1 (idx_main_v2 (ix3 b d e)) n = ix2 b n := funext fun a => Fin.ext (by
    match a with
    | ⟨0, _⟩ => show ((b.val * 512 + d.val) * 512 + e.val) / 262144 = b.val; omega
    | ⟨1, _⟩ => rfl)
  have h2 : idx_main_v0 (ridx_main_v1 (idx_main_v2 (ix3 b d e)) n) = ix2 (flat d e) n := funext fun a => Fin.ext (by
    match a with
    | ⟨0, _⟩ => show ((b.val * 512 + d.val) * 512 + e.val) % 262144 = d.val * 512 + e.val; omega
    | ⟨1, _⟩ => rfl)
  rw [h1, h2]

end Cert.ReferenceIdeal.RefValue

end
-- ==== Proof.lean ====
/- The per-subject linear layer: the Pallas program against its jnp reference, over the extended reals.

   Both programs compute  Z (b, s, e) = ∑ d, X (b, s, d) · (∑ n, subj (b, n) · W (512·d + e, n)).
   The kernel program does it in two launches: the first leaves the mixed weights ∑ n, subj (b, n) · W (j, n) in a
   32 × 262144 array, sixteen column blocks of 16384; a host reshape reads that array as 32 matrices of 512 × 512; the
   second multiplies each batch entry's 2048 × 512 activations by its matrix. Its narrowings to bf16 are the identity on
   extended reals and its products start from a zero accumulator, so each stored entry is the plain sum. The reference
   transposes W, multiplies, reshapes and multiplies batchwise: the same nested sums with the same index sets, so the two
   results agree term by term and no input needs to be finite. Nothing was rewritten by the idealization, so the
   preservation claim is `True`. The three frames are the programs' runs with the results forgotten. -/
import proofs.«181074_j28887950033230_1_alg».proof.Defs
import proofs.«181074_j28887950033230_1_alg».proof.Proof.Gen.Kernel
import proofs.«181074_j28887950033230_1_alg».proof.Proof.Gen.Kernel.Skeleton
import proofs.«181074_j28887950033230_1_alg».proof.Proof.Gen.Kernel.Launch
import proofs.«181074_j28887950033230_1_alg».proof.Proof.Gen.Kernel.Points
import proofs.«181074_j28887950033230_1_alg».proof.Proof.Gen.Kernel.Frame
import proofs.«181074_j28887950033230_1_alg».proof.Proof.Gen.KernelIdeal
import proofs.«181074_j28887950033230_1_alg».proof.Proof.Gen.KernelIdeal.Skeleton
import proofs.«181074_j28887950033230_1_alg».proof.Proof.Gen.KernelIdeal.Launch
import proofs.«181074_j28887950033230_1_alg».proof.Proof.Gen.KernelIdeal.Points
import proofs.«181074_j28887950033230_1_alg».proof.Proof.Gen.KernelIdeal.Frame
import proofs.«181074_j28887950033230_1_alg».proof.Proof.Gen.ReferenceIdeal
import proofs.«181074_j28887950033230_1_alg».proof.Proof.Gen.Pre_finite_inputs
import proofs.«181074_j28887950033230_1_alg».proof.Proof.Gen.ReferenceIdeal.Run
import proofs.«181074_j28887950033230_1_alg».proof.Proof.Gen.ReferenceIdeal.Read
import proofs.«181074_j28887950033230_1_alg».proof.Proof.KernelValue
import proofs.«181074_j28887950033230_1_alg».proof.Proof.RefValue
import Idealize.ShloMosaic.Adequacy
import Idealize.ShloMosaic.Init

noncomputable section

namespace Cert.Proof

open Idealize.ShloMosaic Idealize.SL.Sem Cert.Kernel

/-- Run from memories that agree on the three arguments, both programs end with the layer's function `out` of those
    arguments in their result arrays: the kernel program by its two launches and the reshape between them, the reference
    by its four operations read index by index. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq_out, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
